-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x64, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x1, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S850000x1, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Product0.lean ====
import proofs.«423566_j49203145343286_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Product0

open Cert.KernelIdeal Cert.KernelIdeal.Gen

/-- Row `i 0` of the left factor at column `k`. -/
abbrev lrow (i : S50000x128.Idx) (k : Fin 128) : S50000x128.Idx := fun a => match a with
  | ⟨0, _⟩ => ⟨(i 0).val, (i 0).isLt⟩
  | ⟨1, _⟩ => ⟨k.val, k.isLt⟩
/-- Row `k` of the right factor at column `i 1`. -/
abbrev rcol (i : S50000x128.Idx) (k : Fin 128) : S128x128.Idx := fun a => match a with
  | ⟨0, _⟩ => ⟨k.val, k.isLt⟩
  | ⟨1, _⟩ => ⟨(i 1).val, (i 1).isLt⟩

/-- The matrix product `X · W` over the extended reals, entry by entry: entry `(r, q)` is the sum over `k` of `X r k · W k q`. -/
def prod (X : (⟨S50000x128, .f32⟩ : BufTy).Contents (Elt Ideal)) (W : (⟨S128x128, .f32⟩ : BufTy).Contents (Elt Ideal)) :
    (⟨S50000x128, .f32⟩ : BufTy).Contents (Elt Ideal) :=
  fun i => ∑ k : Fin 128, X (lrow i k) * W (rcol i k)

/-! ## One block's product at an entry -/

abbrev D := dot_S5000x128_S128x128_S5000x128_1_0_0_1_n_n

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `j 0` of a block of the left factor at column `k`. -/
abbrev brow (j : S5000x128.Idx) (k : Fin 128) : S5000x128.Idx := fun a => match a with
  | ⟨0, _⟩ => ⟨(j 0).val, (j 0).isLt⟩
  | ⟨1, _⟩ => ⟨k.val, k.isLt⟩
abbrev bcol (j : S5000x128.Idx) (k : Fin 128) : S128x128.Idx := fun a => match a with
  | ⟨0, _⟩ => ⟨k.val, k.isLt⟩
  | ⟨1, _⟩ => ⟨(j 1).val, (j 1).isLt⟩

/-- What the body stores, at an entry: the narrowing of both factors is the identity on extended reals, and the
    product into the zero accumulator is the plain sum over the contracted axis. -/
theorem pay_apply (x0 : Vec Ideal S5000x128 .f32) (x1 : Vec Ideal S128x128 .f32) (j : S5000x128.Idx) :
    k0_pay1 x0 x1 j = ∑ k : Fin 128, x0 (brow j k) * x1 (bcol j k) := by
  unfold k0_pay1
  refine (Ideal.matmul_constant_zero_apply dot_S5000x128_S128x128_S5000x128_1_0_0_1_n_n none _ _ j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = brow j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = bcol j k := funext fun a => Fin.ext (by
    match a with
    | ⟨0, _⟩ => exact (rhs_0 _ _).trans hk
    | ⟨1, _⟩ => exact rhs_1 _ _)
  rw [el, er]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The left factor as the region finds it. -/
abbrev lhsArr (c : Dev nD) : (⟨S50000x128, .f32⟩ : BufTy).Contents (Elt Ideal) := V c main_arg0
/-- The right factor as the region finds it. -/
abbrev rhsArr (c : Dev nD) : (⟨S128x128, .f32⟩ : BufTy).Contents (Elt Ideal) := V c main_arg2

/-- The index maps over the ten grid points: the left factor's and the result's blocks are row block `t`, the right
    factor's block is the whole matrix. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point `t` writes back is block `t` of the product of the two arrays the region finds. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (iblk0 V c 0 t) (iblk0 V c 1 t) j = prod (V c main_arg0) (V c main_arg2) (((cfg0.win 2).blk t).view.emb j)
  refine (pay_apply _ _ j).trans ?_
  unfold prod
  refine Finset.sum_congr rfl fun k _ => ?_
  show lhsArr V c (((cfg0.win 0).blk t).view.emb (brow j k)) * rhsArr V c (((cfg0.win 1).blk t).view.emb (bcol j k))
    = lhsArr V c (lrow (((cfg0.win 2).blk t).view.emb j) k) * rhsArr V c (rcol (((cfg0.win 2).blk t).view.emb j) k)
  have h0 : ((cfg0.win 0).blk t).view.emb (brow j k) = lrow (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (bcol j k) = rcol (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An entry of the result array lies in point `t`'s block iff each coordinate lies in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The ten row blocks tile the result: row `r` lies in block `r / 5000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e0, e1, e2, e3, e4, e5⟩ := idx_facts t
  refine ⟨t, flush0_2 t, ?_⟩
  rw [mem_blk]
  intro a
  have ht : t.val = (i 0).val / 5000 := rfl
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the result array holds the product of the two arrays the region finds. -/
theorem arr_eq (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Product0

end
-- ==== Proof.Bias1.lean ====
import proofs.«423566_j49203145343286_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Bias1

open Cert.KernelIdeal Cert.KernelIdeal.Gen

/-- The one row of the bias at the column of entry `i`. -/
abbrev brow (i : S50000x128.Idx) : S1x128.Idx := fun a => match a with
  | ⟨0, _⟩ => ⟨0, Nat.one_pos⟩
  | ⟨1, _⟩ => ⟨(i 1).val, (i 1).isLt⟩

/-- The bias row added to every row and the result cut off below at zero: entry `(r, q)` is `max (A r q + B 0 q) 0`. -/
def biased (A : (⟨S50000x128, .f32⟩ : BufTy).Contents (Elt Ideal)) (B : (⟨S1x128, .f32⟩ : BufTy).Contents (Elt Ideal)) :
    (⟨S50000x128, .f32⟩ : BufTy).Contents (Elt Ideal) :=
  fun i => max (A i + B (brow i)) (Ideal.ofBits .f32 0x00000000#32)

/-! ## One block at an entry -/

/-- The one row of a block's bias at the column of entry `j`. -/
abbrev crow (j : S5000x128.Idx) : S1x128.Idx := fun a => match a with
  | ⟨0, _⟩ => ⟨0, Nat.one_pos⟩
  | ⟨1, _⟩ => ⟨(j 1).val, (j 1).isLt⟩

/-- What the body stores, at an entry: the casts to the same shape are the identity and the row laid over the block reads
    its one row at the entry's column. -/
theorem pay_apply (x0 : Vec Ideal S5000x128 .f32) (x1 : Vec Ideal S1x128 .f32) (j : S5000x128.Idx) :
    k1_pay1 x0 x1 j = max (x0 j + x1 (crow j)) (Ideal.ofBits .f32 0x00000000#32) := by
  unfold k1_pay1
  have hb : broadcastTo S5000x128 (shapeCast S1x128 (shapeCast S1x128 x1 shapeCasts_S1x128_S1x128) shapeCasts_S1x128_S1x128) broadcasts_S1x128_S5000x128 j = x1 (crow j) := by
    rw [shapeCast_self, shapeCast_self]
    exact broadcastTo_apply x1 broadcasts_S1x128_S5000x128 j (crow j) (fun a => match a with
      | ⟨0, _⟩ => by show 0 = if (1 : Nat) = 1 then 0 else _; rw [if_pos rfl]
      | ⟨1, _⟩ => by show (j 1).val = if (128 : Nat) = 1 then 0 else (j 1).val; rw [if_neg (by decide)])
  have ha : shapeCast S5000x128 x0 shapeCasts_S5000x128_S5000x128 j = x0 j := by rw [shapeCast_self]
  show max (shapeCast S5000x128 x0 shapeCasts_S5000x128_S5000x128 j + broadcastTo S5000x128 (shapeCast S1x128 (shapeCast S1x128 x1 shapeCasts_S1x128_S1x128) shapeCasts_S1x128_S1x128) broadcasts_S1x128_S5000x128 j) (Ideal.ofBits .f32 0x00000000#32) = _
  rw [ha, hb]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The summand as the region finds it. -/
abbrev sumArr (c : Dev nD) : (⟨S50000x128, .f32⟩ : BufTy).Contents (Elt Ideal) := V c main_v43
/-- The bias row as the region finds it. -/
abbrev biasArr (c : Dev nD) : (⟨S1x128, .f32⟩ : BufTy).Contents (Elt Ideal) := V c main_v44

/-- The index maps over the ten grid points: the summand's and the result's blocks are row block `t`, the bias's block is
    its one row. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- What point `t` writes back is block `t` of the biased array. -/
theorem flushed_eq (c : Dev nD) (t : Fin cfg1.N) :
    (dat1 V c).flushed 2 t = ((cfg1.win 2).blk t).view.read (Elt Ideal) (biased (V c main_v43) (V c main_v44)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  show k1_pay1 (iblk1 V c 0 t) (iblk1 V c 1 t) j = biased (V c main_v43) (V c main_v44) (((cfg1.win 2).blk t).view.emb j)
  refine (pay_apply _ _ j).trans ?_
  unfold biased
  show max (sumArr V c (((cfg1.win 0).blk t).view.emb j) + biasArr V c (((cfg1.win 1).blk t).view.emb (crow j))) (Ideal.ofBits .f32 0x00000000#32)
    = max (sumArr V c (((cfg1.win 2).blk t).view.emb j) + biasArr V c (brow (((cfg1.win 2).blk t).view.emb j))) (Ideal.ofBits .f32 0x00000000#32)
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (crow j) = brow (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [h0, h1]

/-- An entry of the result array lies in point `t`'s block iff each coordinate lies in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- The ten row blocks tile the result: row `r` lies in block `r / 5000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e0, e1, e2, e3, e4, e5⟩ := idx_facts t
  refine ⟨t, flush1_2 t, ?_⟩
  rw [mem_blk]
  intro a
  have ht : t.val = (i 0).val / 5000 := rfl
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region the result array holds the biased array. -/
theorem arr_eq (c : Dev nD) : (dat1 V c).arrAt 2 cfg1.N = biased (V c main_v43) (V c main_v44) :=
  (dat1 V c).arrAt_eq_of_cover 2 (biased (V c main_v43) (V c main_v44)) (fun t _ => flushed_eq V c t) cover

end Cert.KernelIdeal.Bias1

end
-- ==== Proof.Product2.lean ====
import proofs.«423566_j49203145343286_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Product2

open Cert.KernelIdeal Cert.KernelIdeal.Gen

/-- Row `i 0` of the left factor at column `k`. -/
abbrev lrow (i : S50000x64.Idx) (k : Fin 128) : S50000x128.Idx := fun a => match a with
  | ⟨0, _⟩ => ⟨(i 0).val, (i 0).isLt⟩
  | ⟨1, _⟩ => ⟨k.val, k.isLt⟩
/-- Row `k` of the right factor at column `i 1`. -/
abbrev rcol (i : S50000x64.Idx) (k : Fin 128) : S128x64.Idx := fun a => match a with
  | ⟨0, _⟩ => ⟨k.val, k.isLt⟩
  | ⟨1, _⟩ => ⟨(i 1).val, (i 1).isLt⟩

/-- The matrix product `X · W` over the extended reals, entry by entry: entry `(r, q)` is the sum over `k` of `X r k · W k q`. -/
def prod (X : (⟨S50000x128, .f32⟩ : BufTy).Contents (Elt Ideal)) (W : (⟨S128x64, .f32⟩ : BufTy).Contents (Elt Ideal)) :
    (⟨S50000x64, .f32⟩ : BufTy).Contents (Elt Ideal) :=
  fun i => ∑ k : Fin 128, X (lrow i k) * W (rcol i k)

/-! ## One block's product at an entry -/

theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Row `j 0` of a block of the left factor at column `k`. -/
abbrev brow (j : S5000x64.Idx) (k : Fin 128) : S5000x128.Idx := fun a => match a with
  | ⟨0, _⟩ => ⟨(j 0).val, (j 0).isLt⟩
  | ⟨1, _⟩ => ⟨k.val, k.isLt⟩
abbrev bcol (j : S5000x64.Idx) (k : Fin 128) : S128x64.Idx := fun a => match a with
  | ⟨0, _⟩ => ⟨k.val, k.isLt⟩
  | ⟨1, _⟩ => ⟨(j 1).val, (j 1).isLt⟩

/-- What the body stores, at an entry: the cast of the left block to its own shape and the narrowing of both factors are
    the identity on extended reals, and the product into the zero accumulator is the plain sum over the contracted axis. -/
theorem pay_apply (x0 : Vec Ideal S5000x128 .f32) (x1 : Vec Ideal S128x64 .f32) (j : S5000x64.Idx) :
    k2_pay1 x0 x1 j = ∑ k : Fin 128, x0 (brow j k) * x1 (bcol j k) := by
  unfold k2_pay1
  rw [shapeCast_self]
  refine (Ideal.matmul_constant_zero_apply dot_S5000x128_S128x64_S5000x64_1_0_0_1_n_n none _ _ j).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = brow j k := funext fun a => Fin.ext (by
    match a with
    | ⟨0, _⟩ => exact lhs_0 _ _
    | ⟨1, _⟩ => exact (lhs_1 _ _).trans hk)
  have er : dot_S5000x128_S128x64_S5000x64_1_0_0_1_n_n.rhsIdx j ((ValueIdx.contrEquiv1 dot_S5000x128_S128x64_S5000x64_1_0_0_1_n_n 128 rfl rfl).symm k) = bcol j k := funext fun a => Fin.ext (by
    match a with
    | ⟨0, _⟩ => exact (rhs_0 _ _).trans hk
    | ⟨1, _⟩ => exact rhs_1 _ _)
  rw [el, er]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The left factor as the region finds it. -/
abbrev lhsArr (c : Dev nD) : (⟨S50000x128, .f32⟩ : BufTy).Contents (Elt Ideal) := V c main_v45
/-- The right factor as the region finds it. -/
abbrev rhsArr (c : Dev nD) : (⟨S128x64, .f32⟩ : BufTy).Contents (Elt Ideal) := V c main_arg4

/-- The index maps over the ten grid points: the left factor's and the result's blocks are row block `t`, the right
    factor's block is the whole matrix. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- What point `t` writes back is block `t` of the product of the two arrays the region finds. -/
theorem flushed_eq (c : Dev nD) (t : Fin cfg2.N) :
    (dat2 V c).flushed 2 t = ((cfg2.win 2).blk t).view.read (Elt Ideal) (prod (V c main_v45) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e0, e1, e2, e3, e4, e5⟩ := idx_facts t
  funext j
  show k2_pay1 (iblk2 V c 0 t) (iblk2 V c 1 t) j = prod (V c main_v45) (V c main_arg4) (((cfg2.win 2).blk t).view.emb j)
  refine (pay_apply _ _ j).trans ?_
  unfold prod
  refine Finset.sum_congr rfl fun k _ => ?_
  show lhsArr V c (((cfg2.win 0).blk t).view.emb (brow j k)) * rhsArr V c (((cfg2.win 1).blk t).view.emb (bcol j k))
    = lhsArr V c (lrow (((cfg2.win 2).blk t).view.emb j) k) * rhsArr V c (rcol (((cfg2.win 2).blk t).view.emb j) k)
  have h0 : ((cfg2.win 0).blk t).view.emb (brow j k) = lrow (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (bcol j k) = rcol (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  rw [h0, h1]

/-- An entry of the result array lies in point `t`'s block iff each coordinate lies in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- The ten row blocks tile the result: row `r` lies in block `r / 5000`. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨e0, e1, e2, e3, e4, e5⟩ := idx_facts t
  refine ⟨t, flush2_2 t, ?_⟩
  rw [mem_blk]
  intro a
  have ht : t.val = (i 0).val / 5000 := rfl
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the region the result array holds the product of the two arrays the region finds. -/
theorem arr_eq (c : Dev nD) : (dat2 V c).arrAt 2 cfg2.N = prod (V c main_v45) (V c main_arg4) :=
  (dat2 V c).arrAt_eq_of_cover 2 (prod (V c main_v45) (V c main_arg4)) (fun t _ => flushed_eq V c t) cover

end Cert.KernelIdeal.Product2

end
-- ==== Proof.Bias3.lean ====
import proofs.«423566_j49203145343286_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Bias3

open Cert.KernelIdeal Cert.KernelIdeal.Gen

/-- The one row of the bias at the column of entry `i`. -/
abbrev brow (i : S50000x64.Idx) : S1x64.Idx := fun a => match a with
  | ⟨0, _⟩ => ⟨0, Nat.one_pos⟩
  | ⟨1, _⟩ => ⟨(i 1).val, (i 1).isLt⟩

/-- The bias row added to every row: entry `(r, q)` is `A r q + B 0 q`. -/
def biased (A : (⟨S50000x64, .f32⟩ : BufTy).Contents (Elt Ideal)) (B : (⟨S1x64, .f32⟩ : BufTy).Contents (Elt Ideal)) :
    (⟨S50000x64, .f32⟩ : BufTy).Contents (Elt Ideal) :=
  fun i => A i + B (brow i)

/-! ## One block at an entry -/

/-- The one row of a block's bias at the column of entry `j`. -/
abbrev crow (j : S5000x64.Idx) : S1x64.Idx := fun a => match a with
  | ⟨0, _⟩ => ⟨0, Nat.one_pos⟩
  | ⟨1, _⟩ => ⟨(j 1).val, (j 1).isLt⟩

/-- What the body stores, at an entry: the casts to the same shape are the identity and the row laid over the block reads
    its one row at the entry's column. -/
theorem pay_apply (x0 : Vec Ideal S5000x64 .f32) (x1 : Vec Ideal S1x64 .f32) (j : S5000x64.Idx) :
    k3_pay1 x0 x1 j = x0 j + x1 (crow j) := by
  unfold k3_pay1
  have hb : broadcastTo S5000x64 (shapeCast S1x64 (shapeCast S1x64 x1 shapeCasts_S1x64_S1x64) shapeCasts_S1x64_S1x64) broadcasts_S1x64_S5000x64 j = x1 (crow j) := by
    rw [shapeCast_self, shapeCast_self]
    exact broadcastTo_apply x1 broadcasts_S1x64_S5000x64 j (crow j) (fun a => match a with
      | ⟨0, _⟩ => by show 0 = if (1 : Nat) = 1 then 0 else _; rw [if_pos rfl]
      | ⟨1, _⟩ => by show (j 1).val = if (64 : Nat) = 1 then 0 else (j 1).val; rw [if_neg (by decide)])
  have ha : shapeCast S5000x64 x0 shapeCasts_S5000x64_S5000x64 j = x0 j := by rw [shapeCast_self]
  show shapeCast S5000x64 x0 shapeCasts_S5000x64_S5000x64 j + broadcastTo S5000x64 (shapeCast S1x64 (shapeCast S1x64 x1 shapeCasts_S1x64_S1x64) shapeCasts_S1x64_S1x64) broadcasts_S1x64_S5000x64 j = _
  rw [ha, hb]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The summand as the region finds it. -/
abbrev sumArr (c : Dev nD) : (⟨S50000x64, .f32⟩ : BufTy).Contents (Elt Ideal) := V c main_v59
/-- The bias row as the region finds it. -/
abbrev biasArr (c : Dev nD) : (⟨S1x64, .f32⟩ : BufTy).Contents (Elt Ideal) := V c main_v60

/-- The index maps over the ten grid points: the summand's and the result's blocks are row block `t`, the bias's block is
    its one row. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) = t.val :=
  (by decide +kernel : ∀ t : Fin grid3.N, _)

/-- What point `t` writes back is block `t` of the biased array. -/
theorem flushed_eq (c : Dev nD) (t : Fin cfg3.N) :
    (dat3 V c).flushed 2 t = ((cfg3.win 2).blk t).view.read (Elt Ideal) (biased (V c main_v59) (V c main_v60)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e0, e1, e2, e3, e4, e5⟩ := idx_facts t
  funext j
  show k3_pay1 (iblk3 V c 0 t) (iblk3 V c 1 t) j = biased (V c main_v59) (V c main_v60) (((cfg3.win 2).blk t).view.emb j)
  refine (pay_apply _ _ j).trans ?_
  unfold biased
  show sumArr V c (((cfg3.win 0).blk t).view.emb j) + biasArr V c (((cfg3.win 1).blk t).view.emb (crow j))
    = sumArr V c (((cfg3.win 2).blk t).view.emb j) + biasArr V c (brow (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (crow j) = brow (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  rw [h0, h1]

/-- An entry of the result array lies in point `t`'s block iff each coordinate lies in the block's range on its axis. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- The ten row blocks tile the result: row `r` lies in block `r / 5000`. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := N_3
  let t : Fin cfg3.N := ⟨(i 0).val / 5000, by rw [hN]; omega⟩
  obtain ⟨e0, e1, e2, e3, e4, e5⟩ := idx_facts t
  refine ⟨t, flush3_2 t, ?_⟩
  rw [mem_blk]
  intro a
  have ht : t.val = (i 0).val / 5000 := rfl
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- After the region the result array holds the biased array. -/
theorem arr_eq (c : Dev nD) : (dat3 V c).arrAt 2 cfg3.N = biased (V c main_v59) (V c main_v60) :=
  (dat3 V c).arrAt_eq_of_cover 2 (biased (V c main_v59) (V c main_v60)) (fun t _ => flushed_eq V c t) cover

end Cert.KernelIdeal.Bias3

end
-- ==== Proof.Bridge.lean ====
import proofs.«423566_j49203145343286_1_alg».proof.Proof.RefRead
import proofs.«423566_j49203145343286_1_alg».proof.Proof.Product0
import proofs.«423566_j49203145343286_1_alg».proof.Proof.Bias1
import proofs.«423566_j49203145343286_1_alg».proof.Proof.Product2
import proofs.«423566_j49203145343286_1_alg».proof.Proof.Bias3
import Idealize.ShloMosaic.Lib.Pipeline.Value
import Idealize.ShloMosaic.Lib.ValueIdx

set_option maxRecDepth 16384

noncomputable section

open Idealize.ShloMosaic Idealize.ShloMosaic.TcCoe Idealize.SL.Sem

/-! # The four regions' whole-array functions are the reference's own operations

Each region of the kernel's program stands where the reference has plain host operations: the two products where it has
`dot_general`, the two bias regions where it lays the bias over the rows and adds (and, after the first layer, takes the
maximum with zero). Entry by entry the two sides are the same extended real. -/

namespace Cert.KernelIdeal.Bridge

open Cert.KernelIdeal Cert.KernelIdeal.Gen Cert.ReferenceIdeal.Read

/-- The first layer's product is the reference's `dot_general` of the same two arrays: both are the sum over `k` of
    `X r k · W k q`. -/
theorem prod0_eq (X : (⟨S50000x128, .f32⟩ : BufTy).Contents (Elt Ideal)) (W : (⟨S128x128, .f32⟩ : BufTy).Contents (Elt Ideal)) :
    val_main_v30 (F := Ideal) X W = Product0.prod X W :=
  funext fun i => (val_main_v30_apply X W i).trans rfl

/-- The second layer's product is the reference's second `dot_general`, whatever its left factor is. -/
theorem prod2_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) :
    val_main_v48 (F := Ideal) x0 x1 x2 x3 x4 = Product2.prod (val_main_v47 (F := Ideal) x0 x1 x2 x3) x4 :=
  funext fun i => (val_main_v48_apply x0 x1 x2 x3 x4 i).trans rfl

/-- A bias vector reshaped to one row, read at the row's column `q`, is the vector's entry `q`. -/
theorem row128_apply (b : (⟨S128, .f32⟩ : BufTy).Contents (Elt Ideal)) (i : S50000x128.Idx) :
    shapeCast S1x128 b shapeCasts_S128_S1x128 (Bias1.brow i) = val_main_v45 (F := Ideal) b i := by
  rw [val_main_v45_apply, val_main_v44_apply]
  refine (shapeCast_addUnit_apply ![128] b shapeCasts_S128_S1x128 (Bias1.brow i)).trans ?_
  refine congrArg b (funext fun a => ?_)
  match a with
  | ⟨0, _⟩ => rfl

theorem row64_apply (b : (⟨S64, .f32⟩ : BufTy).Contents (Elt Ideal)) (i : S50000x64.Idx) :
    shapeCast S1x64 b shapeCasts_S64_S1x64 (Bias3.brow i) = val_main_v63 (F := Ideal) b i := by
  rw [val_main_v63_apply, val_main_v62_apply]
  refine (shapeCast_addUnit_apply ![64] b shapeCasts_S64_S1x64 (Bias3.brow i)).trans ?_
  refine congrArg b (funext fun a => ?_)
  match a with
  | ⟨0, _⟩ => rfl

/-- The first bias region over the reshaped bias is the reference's: the bias laid over the rows, added, and the maximum
    with zero taken. -/
theorem bias1_eq (A : FVec Ideal S50000x128 .f32) (b : FVec Ideal S128 .f32) :
    Bias1.biased A (shapeCast S1x128 b shapeCasts_S128_S1x128)
      = (maximumf (addf A (val_main_v45 (F := Ideal) b)) (val_main_call1_v0 (F := Ideal)) : FVec Ideal S50000x128 .f32) := by
  funext i
  unfold Bias1.biased
  rw [row128_apply]
  show _ = max (A i + val_main_v45 (F := Ideal) b i) (val_main_call1_v0 (F := Ideal) i)
  rw [val_main_call1_v0_apply, val_main_call1_cst_apply]
  rfl

/-- The second bias region over the reshaped bias is the reference's: the bias laid over the rows and added. -/
theorem bias3_eq (A : FVec Ideal S50000x64 .f32) (b : FVec Ideal S64 .f32) :
    Bias3.biased A (shapeCast S1x64 b shapeCasts_S64_S1x64) = (addf A (val_main_v63 (F := Ideal) b) : FVec Ideal S50000x64 .f32) := by
  funext i
  unfold Bias3.biased
  rw [row64_apply]
  rfl

end Cert.KernelIdeal.Bridge

end
-- ==== Proof.HostSteps.lean ====
import proofs.«423566_j49203145343286_1_alg».proof.Proof.Gen.KernelIdeal.Launch
import proofs.«423566_j49203145343286_1_alg».proof.Proof.RefRead
import Idealize.ShloMosaic.Lib.StableHlo.Run

set_option maxRecDepth 16384

noncomputable section

open Idealize.ShloMosaic Idealize.ShloMosaic.TcCoe Idealize.SL.Sem Idealize.ShloMosaic.StableHlo

/-! # The host stretches of the kernel's program, one at a time

Each stretch of host operations between two regions, run from ANY buffer contents `Vb`, leaves in the buffer a later step
reads the reference's stage of the same name, provided the buffers the stretch itself reads hold the reference's stages:
the stretch is the reference's own operations. -/

namespace Cert.KernelIdeal.HostSteps

open Cert.KernelIdeal Cert.KernelIdeal.Gen Cert.ReferenceIdeal.Read

variable {F : FTy → Type} [FloatOps F] (Vb : Valuation τ sig (Elt F))

/-! ## The first stretch: self-loops, degrees, their inverse square roots -/

/-- The source list (edge sources, then every node once). -/
theorem s0_v3 (x1 : (⟨S2x800000, .i32⟩ : BufTy).Contents (Elt F)) (h1 : Vb (Proc.devRef .tc main_arg1) = x1) :
    StableHlo.after hostOps0 Vb (Proc.devRef .tc main_v3) = val_main_v3 (F := F) x1 := by
  subst h1
  dsimp only [hostOps0]
  after_results
  rfl

/-- The target list (edge targets, then every node once). -/
theorem s0_v6 (x1 : (⟨S2x800000, .i32⟩ : BufTy).Contents (Elt F)) (h1 : Vb (Proc.devRef .tc main_arg1) = x1) :
    StableHlo.after hostOps0 Vb (Proc.devRef .tc main_v6) = val_main_v6 (F := F) x1 := by
  subst h1
  dsimp only [hostOps0]
  after_results
  rfl

/-- Where a node's degree (the number of its incoming edges, itself included) is positive. -/
theorem s0_v12 (x1 : (⟨S2x800000, .i32⟩ : BufTy).Contents (Elt F)) (h1 : Vb (Proc.devRef .tc main_arg1) = x1) :
    StableHlo.after hostOps0 Vb (Proc.devRef .tc main_v12) = val_main_v12 (F := F) x1 := by
  subst h1
  dsimp only [hostOps0]
  after_results
  rfl

/-- The inverse square roots of the degrees. -/
theorem s0_v13 (x1 : (⟨S2x800000, .i32⟩ : BufTy).Contents (Elt F)) (h1 : Vb (Proc.devRef .tc main_arg1) = x1) :
    StableHlo.after hostOps0 Vb (Proc.devRef .tc main_v13) = val_main_v13 (F := F) x1 := by
  subst h1
  dsimp only [hostOps0]
  after_results
  rfl

theorem s0_cst2 : StableHlo.after hostOps0 Vb (Proc.devRef .tc main_cst_2) = val_main_cst_2 (F := F) := by
  dsimp only [hostOps0]
  after_results
  rfl

/-- The first stretch writes no argument. -/
theorem s0_arg0 : StableHlo.after hostOps0 Vb (Proc.devRef .tc main_arg0) = Vb (Proc.devRef .tc main_arg0) := by
  dsimp only [hostOps0]
  after_results
theorem s0_arg2 : StableHlo.after hostOps0 Vb (Proc.devRef .tc main_arg2) = Vb (Proc.devRef .tc main_arg2) := by
  dsimp only [hostOps0]
  after_results
theorem s0_arg3 : StableHlo.after hostOps0 Vb (Proc.devRef .tc main_arg3) = Vb (Proc.devRef .tc main_arg3) := by
  dsimp only [hostOps0]
  after_results
theorem s0_arg4 : StableHlo.after hostOps0 Vb (Proc.devRef .tc main_arg4) = Vb (Proc.devRef .tc main_arg4) := by
  dsimp only [hostOps0]
  after_results
theorem s0_arg5 : StableHlo.after hostOps0 Vb (Proc.devRef .tc main_arg5) = Vb (Proc.devRef .tc main_arg5) := by
  dsimp only [hostOps0]
  after_results

/-! ## The call of `where`: the inverse square root of the degree where it is positive, zero elsewhere -/

theorem s1_v14 (x1 : (⟨S2x800000, .i32⟩ : BufTy).Contents (Elt F))
    (h12 : Vb (Proc.devRef .tc main_v12) = val_main_v12 (F := F) x1)
    (h13 : Vb (Proc.devRef .tc main_v13) = val_main_v13 (F := F) x1)
    (hc : Vb (Proc.devRef .tc main_cst_2) = val_main_cst_2 (F := F)) :
    StableHlo.after hostOps0_1 Vb (Proc.devRef .tc main_v14) = val_main_v14 (F := F) x1 := by
  dsimp only [hostOps0_1]
  after_results
  rw [h12, h13, hc]
  rfl

/-- The call writes only its own three buffers. -/
theorem s1_keep (b : Ref sig .tc) (h0 : b ≠ main_call0_v0) (h1 : b ≠ main_call0_v1) (h2 : b ≠ main_v14) :
    StableHlo.after hostOps0_1 Vb (Proc.devRef .tc b) = Vb (Proc.devRef .tc b) :=
  StableHlo.after_of_forall_not_mem (b := Proc.devRef .tc b) _ _ (List.forall_iff_forall_mem.mp (by
    simp only [hostOps0_1, List.Forall, StableHlo.TRef.unary, StableHlo.TRef.ternary, StableHlo.unary_writes, StableHlo.ternary_writes, Finset.mem_singleton]
    exact ⟨StableHlo.devRef_ne_of_ne h0, StableHlo.devRef_ne_of_ne h1, StableHlo.devRef_ne_of_ne h2⟩))

/-! ## The edge weights -/

theorem s2_v29 (x1 : (⟨S2x800000, .i32⟩ : BufTy).Contents (Elt F))
    (h3 : Vb (Proc.devRef .tc main_v3) = val_main_v3 (F := F) x1)
    (h6 : Vb (Proc.devRef .tc main_v6) = val_main_v6 (F := F) x1)
    (h14 : Vb (Proc.devRef .tc main_v14) = val_main_v14 (F := F) x1) :
    StableHlo.after hostOps0_2 Vb (Proc.devRef .tc main_v29) = val_main_v29 (F := F) x1 := by
  dsimp only [hostOps0_2]
  after_results_simp
  rw [h3, h6, h14]
  rfl

/-- The third stretch writes none of the source list, the target list and the arguments. -/
theorem s2_v3 : StableHlo.after hostOps0_2 Vb (Proc.devRef .tc main_v3) = Vb (Proc.devRef .tc main_v3) := by
  dsimp only [hostOps0_2]
  after_results_simp
theorem s2_v6 : StableHlo.after hostOps0_2 Vb (Proc.devRef .tc main_v6) = Vb (Proc.devRef .tc main_v6) := by
  dsimp only [hostOps0_2]
  after_results_simp
theorem s2_arg0 : StableHlo.after hostOps0_2 Vb (Proc.devRef .tc main_arg0) = Vb (Proc.devRef .tc main_arg0) := by
  dsimp only [hostOps0_2]
  after_results_simp
theorem s2_arg2 : StableHlo.after hostOps0_2 Vb (Proc.devRef .tc main_arg2) = Vb (Proc.devRef .tc main_arg2) := by
  dsimp only [hostOps0_2]
  after_results_simp
theorem s2_arg3 : StableHlo.after hostOps0_2 Vb (Proc.devRef .tc main_arg3) = Vb (Proc.devRef .tc main_arg3) := by
  dsimp only [hostOps0_2]
  after_results_simp
theorem s2_arg4 : StableHlo.after hostOps0_2 Vb (Proc.devRef .tc main_arg4) = Vb (Proc.devRef .tc main_arg4) := by
  dsimp only [hostOps0_2]
  after_results_simp
theorem s2_arg5 : StableHlo.after hostOps0_2 Vb (Proc.devRef .tc main_arg5) = Vb (Proc.devRef .tc main_arg5) := by
  dsimp only [hostOps0_2]
  after_results_simp

/-! ## The first layer's aggregation, and the first bias as one row -/

theorem s3_v43 (x0 : (⟨S50000x128, .f32⟩ : BufTy).Contents (Elt F)) (x1 : (⟨S2x800000, .i32⟩ : BufTy).Contents (Elt F)) (x2 : (⟨S128x128, .f32⟩ : BufTy).Contents (Elt F))
    (h3 : Vb (Proc.devRef .tc main_v3) = val_main_v3 (F := F) x1)
    (h6 : Vb (Proc.devRef .tc main_v6) = val_main_v6 (F := F) x1)
    (h29 : Vb (Proc.devRef .tc main_v29) = val_main_v29 (F := F) x1)
    (h30 : Vb (Proc.devRef .tc main_v30) = val_main_v30 (F := F) x0 x2) :
    StableHlo.after hostOps1 Vb (Proc.devRef .tc main_v43) = val_main_v43 (F := F) x0 x1 x2 := by
  dsimp only [hostOps1]
  after_results_simp
  rw [h3, h6, h29, h30]
  rfl

theorem s3_v44 : StableHlo.after hostOps1 Vb (Proc.devRef .tc main_v44)
    = shapeCast S1x128 (Vb (Proc.devRef .tc main_arg3)) shapeCasts_S128_S1x128 := by
  dsimp only [hostOps1]
  after_results_simp
  rfl

theorem s3_v3 : StableHlo.after hostOps1 Vb (Proc.devRef .tc main_v3) = Vb (Proc.devRef .tc main_v3) := by
  dsimp only [hostOps1]
  after_results_simp
theorem s3_v6 : StableHlo.after hostOps1 Vb (Proc.devRef .tc main_v6) = Vb (Proc.devRef .tc main_v6) := by
  dsimp only [hostOps1]
  after_results_simp
theorem s3_v29 : StableHlo.after hostOps1 Vb (Proc.devRef .tc main_v29) = Vb (Proc.devRef .tc main_v29) := by
  dsimp only [hostOps1]
  after_results_simp
theorem s3_arg4 : StableHlo.after hostOps1 Vb (Proc.devRef .tc main_arg4) = Vb (Proc.devRef .tc main_arg4) := by
  dsimp only [hostOps1]
  after_results_simp
theorem s3_arg5 : StableHlo.after hostOps1 Vb (Proc.devRef .tc main_arg5) = Vb (Proc.devRef .tc main_arg5) := by
  dsimp only [hostOps1]
  after_results_simp

/-! ## The second layer's aggregation, and the second bias as one row -/

theorem s4_v59 (x0 : (⟨S50000x128, .f32⟩ : BufTy).Contents (Elt F)) (x1 : (⟨S2x800000, .i32⟩ : BufTy).Contents (Elt F)) (x2 : (⟨S128x128, .f32⟩ : BufTy).Contents (Elt F))
    (x3 : (⟨S128, .f32⟩ : BufTy).Contents (Elt F)) (x4 : (⟨S128x64, .f32⟩ : BufTy).Contents (Elt F))
    (h3 : Vb (Proc.devRef .tc main_v3) = val_main_v3 (F := F) x1)
    (h6 : Vb (Proc.devRef .tc main_v6) = val_main_v6 (F := F) x1)
    (h29 : Vb (Proc.devRef .tc main_v29) = val_main_v29 (F := F) x1)
    (h46 : Vb (Proc.devRef .tc main_v46) = val_main_v48 (F := F) x0 x1 x2 x3 x4) :
    StableHlo.after hostOps3 Vb (Proc.devRef .tc main_v59) = val_main_v61 (F := F) x0 x1 x2 x3 x4 := by
  dsimp only [hostOps3]
  after_results_simp
  rw [h3, h6, h29, h46]
  rfl

theorem s4_v60 : StableHlo.after hostOps3 Vb (Proc.devRef .tc main_v60)
    = shapeCast S1x64 (Vb (Proc.devRef .tc main_arg5)) shapeCasts_S64_S1x64 := by
  dsimp only [hostOps3]
  after_results_simp
  rfl

end Cert.KernelIdeal.HostSteps

end
-- ==== Proof.Boundary.lean ====
import proofs.«423566_j49203145343286_1_alg».proof.Proof.Gen.KernelIdeal.Frame
import proofs.«423566_j49203145343286_1_alg».proof.Proof.Bridge
import proofs.«423566_j49203145343286_1_alg».proof.Proof.HostSteps
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

/-! # The kernel's program, boundary by boundary

Between its four regions the kernel's program runs the reference's own host operations (the self-loops joined to the edge
list, the degrees by a scatter of ones, their inverse square roots, the edge weights; per layer the gather of the
transformed rows by source, the scaling by the edge weight and the scatter onto the targets). So at every boundary each
buffer a later step reads holds the reference's stage of the same name, as a function of the six arguments: the host
stretches by their steps (Proof/HostSteps.lean) from the boundary before, the regions by their whole-array functions. -/

namespace Cert.KernelIdeal.Boundary

open Cert.KernelIdeal Cert.KernelIdeal.Gen Cert.ReferenceIdeal.Read

variable (m : (ℓ : Loc nD τ sig) → Buf (Elt Ideal) ℓ) (ρ : Dev nD → PrngReg)

/-- The six arguments as launched: node features, edge list, the two weight matrices and the two biases. -/
abbrev a0 (c : Dev nD) : (⟨S50000x128, .f32⟩ : BufTy).Contents (Elt Ideal) := m ((c.tc : Thread nD τ).loc main_arg0)
abbrev a1 (c : Dev nD) : (⟨S2x800000, .i32⟩ : BufTy).Contents (Elt Ideal) := m ((c.tc : Thread nD τ).loc main_arg1)
abbrev a2 (c : Dev nD) : (⟨S128x128, .f32⟩ : BufTy).Contents (Elt Ideal) := m ((c.tc : Thread nD τ).loc main_arg2)
abbrev a3 (c : Dev nD) : (⟨S128, .f32⟩ : BufTy).Contents (Elt Ideal) := m ((c.tc : Thread nD τ).loc main_arg3)
abbrev a4 (c : Dev nD) : (⟨S128x64, .f32⟩ : BufTy).Contents (Elt Ideal) := m ((c.tc : Thread nD τ).loc main_arg4)
abbrev a5 (c : Dev nD) : (⟨S64, .f32⟩ : BufTy).Contents (Elt Ideal) := m ((c.tc : Thread nD τ).loc main_arg5)

/-! ## Before the first region: sources, targets and edge weights -/

/-- At launch a buffer holds what the launch memory gives it. -/
theorem at0_arg0 (c : Dev nD) : W0 m ρ c (Proc.devRef .tc main_arg0) = a0 m c := rfl
theorem at0_arg1 (c : Dev nD) : W0 m ρ c (Proc.devRef .tc main_arg1) = a1 m c := rfl
theorem at0_arg2 (c : Dev nD) : W0 m ρ c (Proc.devRef .tc main_arg2) = a2 m c := rfl
theorem at0_arg3 (c : Dev nD) : W0 m ρ c (Proc.devRef .tc main_arg3) = a3 m c := rfl
theorem at0_arg4 (c : Dev nD) : W0 m ρ c (Proc.devRef .tc main_arg4) = a4 m c := rfl
theorem at0_arg5 (c : Dev nD) : W0 m ρ c (Proc.devRef .tc main_arg5) = a5 m c := rfl

/-- After the first stretch: the source and target lists, where the degree is positive, its inverse square root. -/
theorem at1_v3 (c : Dev nD) : W1 m ρ c (Proc.devRef .tc main_v3) = val_main_v3 (F := Ideal) (a1 m c) :=
  HostSteps.s0_v3 (W0 m ρ c) (a1 m c) (at0_arg1 m ρ c)
theorem at1_v6 (c : Dev nD) : W1 m ρ c (Proc.devRef .tc main_v6) = val_main_v6 (F := Ideal) (a1 m c) :=
  HostSteps.s0_v6 (W0 m ρ c) (a1 m c) (at0_arg1 m ρ c)
theorem at1_v12 (c : Dev nD) : W1 m ρ c (Proc.devRef .tc main_v12) = val_main_v12 (F := Ideal) (a1 m c) :=
  HostSteps.s0_v12 (W0 m ρ c) (a1 m c) (at0_arg1 m ρ c)
theorem at1_v13 (c : Dev nD) : W1 m ρ c (Proc.devRef .tc main_v13) = val_main_v13 (F := Ideal) (a1 m c) :=
  HostSteps.s0_v13 (W0 m ρ c) (a1 m c) (at0_arg1 m ρ c)
theorem at1_cst2 (c : Dev nD) : W1 m ρ c (Proc.devRef .tc main_cst_2) = val_main_cst_2 (F := Ideal) :=
  HostSteps.s0_cst2 (W0 m ρ c)
theorem at1_arg0 (c : Dev nD) : W1 m ρ c (Proc.devRef .tc main_arg0) = a0 m c :=
  (HostSteps.s0_arg0 (W0 m ρ c)).trans (at0_arg0 m ρ c)
theorem at1_arg2 (c : Dev nD) : W1 m ρ c (Proc.devRef .tc main_arg2) = a2 m c :=
  (HostSteps.s0_arg2 (W0 m ρ c)).trans (at0_arg2 m ρ c)
theorem at1_arg3 (c : Dev nD) : W1 m ρ c (Proc.devRef .tc main_arg3) = a3 m c :=
  (HostSteps.s0_arg3 (W0 m ρ c)).trans (at0_arg3 m ρ c)
theorem at1_arg4 (c : Dev nD) : W1 m ρ c (Proc.devRef .tc main_arg4) = a4 m c :=
  (HostSteps.s0_arg4 (W0 m ρ c)).trans (at0_arg4 m ρ c)
theorem at1_arg5 (c : Dev nD) : W1 m ρ c (Proc.devRef .tc main_arg5) = a5 m c :=
  (HostSteps.s0_arg5 (W0 m ρ c)).trans (at0_arg5 m ρ c)

/-- The inverse square root of the degree where it is positive, zero elsewhere. -/
theorem at2_v14 (c : Dev nD) : W2 m ρ c (Proc.devRef .tc main_v14) = val_main_v14 (F := Ideal) (a1 m c) :=
  HostSteps.s1_v14 (W1 m ρ c) (a1 m c) (at1_v12 m ρ c) (at1_v13 m ρ c) (at1_cst2 m ρ c)
theorem at2_v3 (c : Dev nD) : W2 m ρ c (Proc.devRef .tc main_v3) = val_main_v3 (F := Ideal) (a1 m c) :=
  (HostSteps.s1_keep (W1 m ρ c) main_v3 (by decide) (by decide) (by decide)).trans (at1_v3 m ρ c)
theorem at2_v6 (c : Dev nD) : W2 m ρ c (Proc.devRef .tc main_v6) = val_main_v6 (F := Ideal) (a1 m c) :=
  (HostSteps.s1_keep (W1 m ρ c) main_v6 (by decide) (by decide) (by decide)).trans (at1_v6 m ρ c)
theorem at2_arg0 (c : Dev nD) : W2 m ρ c (Proc.devRef .tc main_arg0) = a0 m c :=
  (HostSteps.s1_keep (W1 m ρ c) main_arg0 (by decide) (by decide) (by decide)).trans (at1_arg0 m ρ c)
theorem at2_arg2 (c : Dev nD) : W2 m ρ c (Proc.devRef .tc main_arg2) = a2 m c :=
  (HostSteps.s1_keep (W1 m ρ c) main_arg2 (by decide) (by decide) (by decide)).trans (at1_arg2 m ρ c)
theorem at2_arg3 (c : Dev nD) : W2 m ρ c (Proc.devRef .tc main_arg3) = a3 m c :=
  (HostSteps.s1_keep (W1 m ρ c) main_arg3 (by decide) (by decide) (by decide)).trans (at1_arg3 m ρ c)
theorem at2_arg4 (c : Dev nD) : W2 m ρ c (Proc.devRef .tc main_arg4) = a4 m c :=
  (HostSteps.s1_keep (W1 m ρ c) main_arg4 (by decide) (by decide) (by decide)).trans (at1_arg4 m ρ c)
theorem at2_arg5 (c : Dev nD) : W2 m ρ c (Proc.devRef .tc main_arg5) = a5 m c :=
  (HostSteps.s1_keep (W1 m ρ c) main_arg5 (by decide) (by decide) (by decide)).trans (at1_arg5 m ρ c)

/-- The edge weights: the two end points' inverse square roots of the degree, multiplied. -/
theorem at3_v29 (c : Dev nD) : W3 m ρ c (Proc.devRef .tc main_v29) = val_main_v29 (F := Ideal) (a1 m c) :=
  HostSteps.s2_v29 (W2 m ρ c) (a1 m c) (at2_v3 m ρ c) (at2_v6 m ρ c) (at2_v14 m ρ c)
theorem at3_v3 (c : Dev nD) : W3 m ρ c (Proc.devRef .tc main_v3) = val_main_v3 (F := Ideal) (a1 m c) :=
  (HostSteps.s2_v3 (W2 m ρ c)).trans (at2_v3 m ρ c)
theorem at3_v6 (c : Dev nD) : W3 m ρ c (Proc.devRef .tc main_v6) = val_main_v6 (F := Ideal) (a1 m c) :=
  (HostSteps.s2_v6 (W2 m ρ c)).trans (at2_v6 m ρ c)
theorem at3_arg0 (c : Dev nD) : W3 m ρ c (Proc.devRef .tc main_arg0) = a0 m c :=
  (HostSteps.s2_arg0 (W2 m ρ c)).trans (at2_arg0 m ρ c)
theorem at3_arg2 (c : Dev nD) : W3 m ρ c (Proc.devRef .tc main_arg2) = a2 m c :=
  (HostSteps.s2_arg2 (W2 m ρ c)).trans (at2_arg2 m ρ c)
theorem at3_arg3 (c : Dev nD) : W3 m ρ c (Proc.devRef .tc main_arg3) = a3 m c :=
  (HostSteps.s2_arg3 (W2 m ρ c)).trans (at2_arg3 m ρ c)
theorem at3_arg4 (c : Dev nD) : W3 m ρ c (Proc.devRef .tc main_arg4) = a4 m c :=
  (HostSteps.s2_arg4 (W2 m ρ c)).trans (at2_arg4 m ρ c)
theorem at3_arg5 (c : Dev nD) : W3 m ρ c (Proc.devRef .tc main_arg5) = a5 m c :=
  (HostSteps.s2_arg5 (W2 m ρ c)).trans (at2_arg5 m ρ c)

/-! ## The first layer -/

/-- After the first region its result array holds the reference's first `dot_general`. -/
theorem at4_v30 (c : Dev nD) : W4 m ρ c (Proc.devRef .tc main_v30) = val_main_v30 (F := Ideal) (a0 m c) (a2 m c) := by
  refine (W4_arr m ρ c 2).trans ?_
  refine (Product0.arr_eq (V3 m ρ) c).trans ?_
  show Product0.prod (W3 m ρ c (Proc.devRef .tc main_arg0)) (W3 m ρ c (Proc.devRef .tc main_arg2)) = _
  rw [at3_arg0, at3_arg2]
  exact (Bridge.prod0_eq _ _).symm

/-- The first region writes only its result array. -/
theorem at4_v3 (c : Dev nD) : W4 m ρ c (Proc.devRef .tc main_v3) = val_main_v3 (F := Ideal) (a1 m c) :=
  (W4_of_ne m ρ c main_v3 (by decide)).trans (at3_v3 m ρ c)
theorem at4_v6 (c : Dev nD) : W4 m ρ c (Proc.devRef .tc main_v6) = val_main_v6 (F := Ideal) (a1 m c) :=
  (W4_of_ne m ρ c main_v6 (by decide)).trans (at3_v6 m ρ c)
theorem at4_v29 (c : Dev nD) : W4 m ρ c (Proc.devRef .tc main_v29) = val_main_v29 (F := Ideal) (a1 m c) :=
  (W4_of_ne m ρ c main_v29 (by decide)).trans (at3_v29 m ρ c)
theorem at4_arg3 (c : Dev nD) : W4 m ρ c (Proc.devRef .tc main_arg3) = a3 m c :=
  (W4_of_ne m ρ c main_arg3 (by decide)).trans (at3_arg3 m ρ c)
theorem at4_arg4 (c : Dev nD) : W4 m ρ c (Proc.devRef .tc main_arg4) = a4 m c :=
  (W4_of_ne m ρ c main_arg4 (by decide)).trans (at3_arg4 m ρ c)
theorem at4_arg5 (c : Dev nD) : W4 m ρ c (Proc.devRef .tc main_arg5) = a5 m c :=
  (W4_of_ne m ρ c main_arg5 (by decide)).trans (at3_arg5 m ρ c)

/-- The first layer's aggregate: rows gathered by source, scaled by the edge weight, scattered onto the targets. -/
theorem at5_v43 (c : Dev nD) :
    W5 m ρ c (Proc.devRef .tc main_v43) = val_main_v43 (F := Ideal) (a0 m c) (a1 m c) (a2 m c) :=
  HostSteps.s3_v43 (W4 m ρ c) (a0 m c) (a1 m c) (a2 m c) (at4_v3 m ρ c) (at4_v6 m ρ c) (at4_v29 m ρ c) (at4_v30 m ρ c)

/-- The first bias as one row. -/
theorem at5_v44 (c : Dev nD) :
    W5 m ρ c (Proc.devRef .tc main_v44) = shapeCast S1x128 (a3 m c) shapeCasts_S128_S1x128 :=
  (HostSteps.s3_v44 (W4 m ρ c)).trans (by rw [at4_arg3])
theorem at5_v3 (c : Dev nD) : W5 m ρ c (Proc.devRef .tc main_v3) = val_main_v3 (F := Ideal) (a1 m c) :=
  (HostSteps.s3_v3 (W4 m ρ c)).trans (at4_v3 m ρ c)
theorem at5_v6 (c : Dev nD) : W5 m ρ c (Proc.devRef .tc main_v6) = val_main_v6 (F := Ideal) (a1 m c) :=
  (HostSteps.s3_v6 (W4 m ρ c)).trans (at4_v6 m ρ c)
theorem at5_v29 (c : Dev nD) : W5 m ρ c (Proc.devRef .tc main_v29) = val_main_v29 (F := Ideal) (a1 m c) :=
  (HostSteps.s3_v29 (W4 m ρ c)).trans (at4_v29 m ρ c)
theorem at5_arg4 (c : Dev nD) : W5 m ρ c (Proc.devRef .tc main_arg4) = a4 m c :=
  (HostSteps.s3_arg4 (W4 m ρ c)).trans (at4_arg4 m ρ c)
theorem at5_arg5 (c : Dev nD) : W5 m ρ c (Proc.devRef .tc main_arg5) = a5 m c :=
  (HostSteps.s3_arg5 (W4 m ρ c)).trans (at4_arg5 m ρ c)

/-- After the second region its result array holds the reference's first layer: aggregate plus bias, maximum with zero. -/
theorem at6_v45 (c : Dev nD) :
    W6 m ρ c (Proc.devRef .tc main_v45) = val_main_v47 (F := Ideal) (a0 m c) (a1 m c) (a2 m c) (a3 m c) := by
  refine (W6_arr m ρ c 2).trans ?_
  refine (Bias1.arr_eq (V5 m ρ) c).trans ?_
  show Bias1.biased (W5 m ρ c (Proc.devRef .tc main_v43)) (W5 m ρ c (Proc.devRef .tc main_v44)) = _
  rw [at5_v43, at5_v44]
  exact Bridge.bias1_eq _ _

/-- The second region writes only its result array. -/
theorem at6_v3 (c : Dev nD) : W6 m ρ c (Proc.devRef .tc main_v3) = val_main_v3 (F := Ideal) (a1 m c) :=
  (W6_of_ne m ρ c main_v3 (by decide)).trans (at5_v3 m ρ c)
theorem at6_v6 (c : Dev nD) : W6 m ρ c (Proc.devRef .tc main_v6) = val_main_v6 (F := Ideal) (a1 m c) :=
  (W6_of_ne m ρ c main_v6 (by decide)).trans (at5_v6 m ρ c)
theorem at6_v29 (c : Dev nD) : W6 m ρ c (Proc.devRef .tc main_v29) = val_main_v29 (F := Ideal) (a1 m c) :=
  (W6_of_ne m ρ c main_v29 (by decide)).trans (at5_v29 m ρ c)
theorem at6_arg4 (c : Dev nD) : W6 m ρ c (Proc.devRef .tc main_arg4) = a4 m c :=
  (W6_of_ne m ρ c main_arg4 (by decide)).trans (at5_arg4 m ρ c)
theorem at6_arg5 (c : Dev nD) : W6 m ρ c (Proc.devRef .tc main_arg5) = a5 m c :=
  (W6_of_ne m ρ c main_arg5 (by decide)).trans (at5_arg5 m ρ c)

/-! ## The second layer -/

/-- After the third region its result array holds the reference's second `dot_general`. -/
theorem at7_v46 (c : Dev nD) :
    W7 m ρ c (Proc.devRef .tc main_v46) = val_main_v48 (F := Ideal) (a0 m c) (a1 m c) (a2 m c) (a3 m c) (a4 m c) := by
  refine (W7_arr m ρ c 2).trans ?_
  refine (Product2.arr_eq (V6 m ρ) c).trans ?_
  show Product2.prod (W6 m ρ c (Proc.devRef .tc main_v45)) (W6 m ρ c (Proc.devRef .tc main_arg4)) = _
  rw [at6_v45, at6_arg4]
  exact (Bridge.prod2_eq _ _ _ _ _).symm

/-- The third region writes only its result array. -/
theorem at7_v3 (c : Dev nD) : W7 m ρ c (Proc.devRef .tc main_v3) = val_main_v3 (F := Ideal) (a1 m c) :=
  (W7_of_ne m ρ c main_v3 (by decide)).trans (at6_v3 m ρ c)
theorem at7_v6 (c : Dev nD) : W7 m ρ c (Proc.devRef .tc main_v6) = val_main_v6 (F := Ideal) (a1 m c) :=
  (W7_of_ne m ρ c main_v6 (by decide)).trans (at6_v6 m ρ c)
theorem at7_v29 (c : Dev nD) : W7 m ρ c (Proc.devRef .tc main_v29) = val_main_v29 (F := Ideal) (a1 m c) :=
  (W7_of_ne m ρ c main_v29 (by decide)).trans (at6_v29 m ρ c)
theorem at7_arg5 (c : Dev nD) : W7 m ρ c (Proc.devRef .tc main_arg5) = a5 m c :=
  (W7_of_ne m ρ c main_arg5 (by decide)).trans (at6_arg5 m ρ c)

/-- The second layer's aggregate. -/
theorem at8_v59 (c : Dev nD) :
    W8 m ρ c (Proc.devRef .tc main_v59) = val_main_v61 (F := Ideal) (a0 m c) (a1 m c) (a2 m c) (a3 m c) (a4 m c) :=
  HostSteps.s4_v59 (W7 m ρ c) (a0 m c) (a1 m c) (a2 m c) (a3 m c) (a4 m c) (at7_v3 m ρ c) (at7_v6 m ρ c) (at7_v29 m ρ c) (at7_v46 m ρ c)

/-- The second bias as one row. -/
theorem at8_v60 (c : Dev nD) :
    W8 m ρ c (Proc.devRef .tc main_v60) = shapeCast S1x64 (a5 m c) shapeCasts_S64_S1x64 :=
  (HostSteps.s4_v60 (W7 m ρ c)).trans (by rw [at7_arg5])

/-- THE RESULT: after the last region the result array holds the reference's result, as a function of the six arguments. -/
theorem result (c : Dev nD) :
    W9 m ρ c (Proc.devRef .tc main_v61)
      = val_main_v64 (F := Ideal) (a0 m c) (a1 m c) (a2 m c) (a3 m c) (a4 m c) (a5 m c) := by
  refine (W9_arr m ρ c 2).trans ?_
  refine (Bias3.arr_eq (V8 m ρ) c).trans ?_
  show Bias3.biased (W8 m ρ c (Proc.devRef .tc main_v59)) (W8 m ρ c (Proc.devRef .tc main_v60)) = _
  rw [at8_v59, at8_v60]
  exact Bridge.bias3_eq _ _

end Cert.KernelIdeal.Boundary

end
-- ==== Proof.lean ====
/- The proof of `Cert.Claim`: a two-layer graph convolution, `out = Â · relu(Â · (x · W1) + b1) · W2 + b2` with
   `Â = D^(-1/2) (A + I) D^(-1/2)` given by an edge list, computed by four kernel regions (the two dense products, on factors
   narrowed to bf16, and the two bias steps, the first with the maximum with zero) among the host's gathers and scatters,
   against the same computation written with host operations only.
   At the exact instance the narrowing is the identity and a product into a zero accumulator is the plain sum over the
   contracted axis, so each region's result array is, entry by entry, the reference's own operation of the arrays the region
   finds (Proof/Product0.lean, Proof/Bias1.lean, Proof/Product2.lean, Proof/Bias3.lean: what a grid point writes back is its
   row block of that function, and the ten row blocks tile the array; Proof/Bridge.lean: the function is the reference's
   `dot_general`, respectively its broadcast, add and maximum). Everything between the regions is the reference's own host
   operations, so the kernel's program read boundary by boundary (Proof/Boundary.lean) ends with the reference's result
   stage as a function of the six arguments, and the reference's run ends with the same stage. No law of arithmetic beyond
   this reading is used, so the precondition (finite inputs) is never opened. The kernel's run with its result array named is
   the frame's launch called again (Proof/RunNamed.lean); the three frames are the generated ones, the reference's its run
   with the result dropped; the ideal pass rewrote nothing, so `preserves` is trivial. -/
import proofs.«423566_j49203145343286_1_alg».proof.Defs
import proofs.«423566_j49203145343286_1_alg».proof.Proof.Gen.Kernel
import proofs.«423566_j49203145343286_1_alg».proof.Proof.Gen.Kernel.Skeleton
import proofs.«423566_j49203145343286_1_alg».proof.Proof.Gen.Kernel.Launch
import proofs.«423566_j49203145343286_1_alg».proof.Proof.Gen.Kernel.Points
import proofs.«423566_j49203145343286_1_alg».proof.Proof.Gen.Kernel.Frame
import proofs.«423566_j49203145343286_1_alg».proof.Proof.Gen.KernelIdeal
import proofs.«423566_j49203145343286_1_alg».proof.Proof.Gen.KernelIdeal.Skeleton
import proofs.«423566_j49203145343286_1_alg».proof.Proof.Gen.KernelIdeal.Launch
import proofs.«423566_j49203145343286_1_alg».proof.Proof.Gen.KernelIdeal.Points
import proofs.«423566_j49203145343286_1_alg».proof.Proof.Gen.KernelIdeal.Frame
import proofs.«423566_j49203145343286_1_alg».proof.Proof.Gen.ReferenceIdeal
import proofs.«423566_j49203145343286_1_alg».proof.Proof.Gen.Pre_finite_inputs
import proofs.«423566_j49203145343286_1_alg».proof.Proof.RunNamed
import proofs.«423566_j49203145343286_1_alg».proof.Proof.RefRun
import proofs.«423566_j49203145343286_1_alg».proof.Proof.RefRead
import proofs.«423566_j49203145343286_1_alg».proof.Proof.Boundary
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result stage of the six arguments: the kernel's by the reading of its program
    boundary by boundary, the reference's by its run; the arguments agree. -/
theorem algebraic : Cert.algebraic_KernelIdeal_ReferenceIdeal := by
  intro m ρ m' ρ' _ hagree
  refine ⟨fun c => Cert.ReferenceIdeal.Read.val_main_v64 (F := Ideal)
      (Cert.KernelIdeal.Boundary.a0 m c) (Cert.KernelIdeal.Boundary.a1 m c) (Cert.KernelIdeal.Boundary.a2 m c)
      (Cert.KernelIdeal.Boundary.a3 m c) (Cert.KernelIdeal.Boundary.a4 m c) (Cert.KernelIdeal.Boundary.a5 m c), ?_, ?_⟩
  · exact (θ_run Cert.KernelIdeal.defs _ _).mono
      (fun _ h c => ⟨(h c).1.trans (Cert.KernelIdeal.Boundary.result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v64_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
